-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 84
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S850000x1, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x128, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x64, .f32⟩
  | .hbm, ⟨66, _⟩ => ⟨S850000x1, .f32⟩
  | .hbm, ⟨67, _⟩ => ⟨S_, .i32⟩
  | .hbm, ⟨68, _⟩ => ⟨S850000, .i32⟩
  | .hbm, ⟨69, _⟩ => ⟨S850000, .i1⟩
  | .hbm, ⟨70, _⟩ => ⟨S_, .i32⟩
  | .hbm, ⟨71, _⟩ => ⟨S850000, .i32⟩
  | .hbm, ⟨72, _⟩ => ⟨S850000, .i32⟩
  | .hbm, ⟨73, _⟩ => ⟨S850000, .i32⟩
  | .hbm, ⟨74, _⟩ => ⟨S850000x1, .i32⟩
  | .hbm, ⟨75, _⟩ => ⟨S850000x64, .f32⟩
  | .hbm, ⟨76, _⟩ => ⟨S850000x64, .f32⟩
  | .hbm, ⟨77, _⟩ => ⟨S850000x64, .f32⟩
  | .hbm, ⟨78, _⟩ => ⟨S_, .f32⟩
  | .hbm, ⟨79, _⟩ => ⟨S50000x64, .f32⟩
  | .hbm, ⟨80, _⟩ => ⟨S850000x1, .i32⟩
  | .hbm, ⟨81, _⟩ => ⟨S50000x64, .f32⟩
  | .hbm, ⟨82, _⟩ => ⟨S1x64, .f32⟩
  | .hbm, ⟨83, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 89
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S850000x1, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x128, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x64, .f32⟩
  | .hbm, ⟨70, _⟩ => ⟨S850000x1, .f32⟩
  | .hbm, ⟨71, _⟩ => ⟨S_, .i32⟩
  | .hbm, ⟨72, _⟩ => ⟨S850000, .i32⟩
  | .hbm, ⟨73, _⟩ => ⟨S850000, .i1⟩
  | .hbm, ⟨74, _⟩ => ⟨S_, .i32⟩
  | .hbm, ⟨75, _⟩ => ⟨S850000, .i32⟩
  | .hbm, ⟨76, _⟩ => ⟨S850000, .i32⟩
  | .hbm, ⟨77, _⟩ => ⟨S850000, .i32⟩
  | .hbm, ⟨78, _⟩ => ⟨S850000x1, .i32⟩
  | .hbm, ⟨79, _⟩ => ⟨S850000x64, .f32⟩
  | .hbm, ⟨80, _⟩ => ⟨S850000x64, .f32⟩
  | .hbm, ⟨81, _⟩ => ⟨S850000x64, .f32⟩
  | .hbm, ⟨82, _⟩ => ⟨S_, .f32⟩
  | .hbm, ⟨83, _⟩ => ⟨S50000x64, .f32⟩
  | .hbm, ⟨84, _⟩ => ⟨S850000x1, .i32⟩
  | .hbm, ⟨85, _⟩ => ⟨S50000x64, .f32⟩
  | .hbm, ⟨86, _⟩ => ⟨S1x64, .f32⟩
  | .hbm, ⟨87, _⟩ => ⟨S50000x64, .f32⟩
  | .hbm, ⟨88, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.HostChain.lean ====
/-
  The host side of the kernel's program, read stretch by stretch.

  Between its four row-tiled regions the kernel's program runs the same whole-array host operations as the reference:
  the edge list with the self loops appended, the degree count and its inverse square root, the per-edge weight, and, once
  per layer, "gather the rows of the product, scale them by the edge weights, sum them onto the target nodes". Each stretch
  is read here from ANY buffer contents `V` it may start from: its results are the reference's own stages (the functions
  `val_main_v…` that read the reference one operation at a time) of the launch arguments, given that the buffers the
  stretch reads hold those stages' earlier values.
-/
import proofs.«158470_j22308060135605_1_alg».proof.Proof.Gen.KernelIdeal.Launch
import proofs.«158470_j22308060135605_1_alg».proof.Proof.RefRead
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Chain

open Cert.KernelIdeal Cert.KernelIdeal.Gen Cert.ReferenceIdeal.ReadP

variable {F : FTy → Type} [FloatOps F]
-- the buffer contents a stretch starts from
variable (V : Valuation τ sig (Elt F))
-- the launch arguments the stages are functions of
variable (x0 : (⟨Cert.ReferenceIdeal.S50000x128, .f32⟩ : BufTy).Contents (Elt F)) (x1 : (⟨Cert.ReferenceIdeal.S2x800000, .i32⟩ : BufTy).Contents (Elt F))
  (x2 : (⟨Cert.ReferenceIdeal.S128x128, .f32⟩ : BufTy).Contents (Elt F)) (x3 : (⟨Cert.ReferenceIdeal.S128, .f32⟩ : BufTy).Contents (Elt F))
  (x4 : (⟨Cert.ReferenceIdeal.S128x64, .f32⟩ : BufTy).Contents (Elt F))

/-! ## Before the first region -/

/-- The source nodes of the edges, self loops appended. -/
theorem s0_v5 (h1 : V (Proc.devRef .tc main_arg1) = x1) :
    StableHlo.after hostOps0 V (Proc.devRef .tc main_v5) = val_main_v5 (F := F) x1 := by
  after_results
  rw [h1]
  rfl

/-- The target nodes of the edges, self loops appended. -/
theorem s0_v6 (h1 : V (Proc.devRef .tc main_arg1) = x1) :
    StableHlo.after hostOps0 V (Proc.devRef .tc main_v6) = val_main_v6 (F := F) x1 := by
  after_results
  rw [h1]
  rfl

/-- Which nodes have a positive degree. -/
theorem s0_v12 (h1 : V (Proc.devRef .tc main_arg1) = x1) :
    StableHlo.after hostOps0 V (Proc.devRef .tc main_v12) = val_main_v12 (F := F) x1 := by
  after_results
  rw [h1]
  rfl

/-- The inverse square roots of the degrees. -/
theorem s0_v13 (h1 : V (Proc.devRef .tc main_arg1) = x1) :
    StableHlo.after hostOps0 V (Proc.devRef .tc main_v13) = val_main_v13 (F := F) x1 := by
  after_results
  rw [h1]
  rfl

/-- The zero that stands in for the inverse square root of a zero degree. -/
theorem s0_cst2 :
    StableHlo.after hostOps0 V (Proc.devRef .tc main_cst_2) = val_main_cst_2 (F := F) := by
  after_results
  rfl

/-- The per-node factor: the inverse square root of a positive degree, zero otherwise. -/
theorem s01_v14 (h12 : V (Proc.devRef .tc main_v12) = val_main_v12 (F := F) x1) (h13 : V (Proc.devRef .tc main_v13) = val_main_v13 (F := F) x1)
    (hc : V (Proc.devRef .tc main_cst_2) = val_main_cst_2 (F := F)) :
    StableHlo.after hostOps0_1 V (Proc.devRef .tc main_v14) = val_main_v14 (F := F) x1 := by
  after_results
  rw [h12, h13, hc]
  rfl

/-- The per-edge weight: the two end nodes' factors, multiplied. -/
theorem s02_v29 (h14 : V (Proc.devRef .tc main_v14) = val_main_v14 (F := F) x1) (h5 : V (Proc.devRef .tc main_v5) = val_main_v5 (F := F) x1)
    (h6 : V (Proc.devRef .tc main_v6) = val_main_v6 (F := F) x1) :
    StableHlo.after hostOps0_2 V (Proc.devRef .tc main_v29) = val_main_v29 (F := F) x1 := by
  after_results_simp
  rw [h14, h5, h6]
  rfl

/-! ## Between the first product and the first bias step -/

/-- The first layer's aggregation: the product's rows gathered along the edges, scaled by the edge weights and summed onto
    the target nodes. -/
theorem s1_v43 (h29 : V (Proc.devRef .tc main_v29) = val_main_v29 (F := F) x1) (h5 : V (Proc.devRef .tc main_v5) = val_main_v5 (F := F) x1)
    (h6 : V (Proc.devRef .tc main_v6) = val_main_v6 (F := F) x1) (h30 : V (Proc.devRef .tc main_v30) = val_main_v30 (F := F) x0 x2) :
    StableHlo.after hostOps1 V (Proc.devRef .tc main_v43) = val_main_v43 (F := F) x0 x1 x2 := by
  after_results_simp
  rw [h29, h5, h6, h30]
  rfl

/-- The first bias as a [1, 128] row. -/
theorem s1_v44 :
    StableHlo.after hostOps1 V (Proc.devRef .tc main_v44)
      = (shapeCast S1x128 (V (Proc.devRef .tc main_arg3) : S128.Idx → Elt F .f32) shapeCasts_S128_S1x128 : S1x128.Idx → Elt F .f32) := by
  after_results
  rfl

/-! ## Between the second product and the second bias step -/

/-- The second layer's aggregation. -/
theorem s3_v59 (h29 : V (Proc.devRef .tc main_v29) = val_main_v29 (F := F) x1) (h5 : V (Proc.devRef .tc main_v5) = val_main_v5 (F := F) x1)
    (h6 : V (Proc.devRef .tc main_v6) = val_main_v6 (F := F) x1) (h46 : V (Proc.devRef .tc main_v46) = val_main_v48 (F := F) x0 x1 x2 x3 x4) :
    StableHlo.after hostOps3 V (Proc.devRef .tc main_v59) = val_main_v61 (F := F) x0 x1 x2 x3 x4 := by
  after_results_simp
  rw [h29, h5, h6, h46]
  rfl

/-- The second bias as a [1, 64] row. -/
theorem s3_v60 :
    StableHlo.after hostOps3 V (Proc.devRef .tc main_v60)
      = (shapeCast S1x64 (V (Proc.devRef .tc main_arg5) : S64.Idx → Elt F .f32) shapeCasts_S64_S1x64 : S1x64.Idx → Elt F .f32) := by
  after_results
  rfl

end Cert.KernelIdeal.Chain

end
-- ==== Proof.Layer.lean ====
/-
  The dense pieces of a two-layer graph convolution, as functions of whole arrays with values in the extended reals.

  A node's features pass through a weight matrix: row r of the product reads row r of the features only,
  entry (r, c) being the sum over k of x (r, k) * w (k, c). After the neighbours' rows have been summed a bias row is
  added to every row, and (in the first layer) the result is clipped at zero. These three functions are what a kernel that
  walks the rows tile by tile leaves in its result array, and what the host's whole-array operations compute.
-/
import Idealize.ShloMosaic.Lib.ValueIdx
import Idealize.ShloMosaic.PureOps.Ideal

noncomputable section

namespace Cert.Layer

open Idealize.ShloMosaic Idealize.ShloMosaic.ValueIdx

/-- Rows times a weight matrix: entry (r, c) is the sum over k of x (r, k) * w (k, c). -/
def rowsMul {N K M : ℕ} (x : (⟨2, ![N, K]⟩ : Shape).Idx → EReal) (w : (⟨2, ![K, M]⟩ : Shape).Idx → EReal) :
    (⟨2, ![N, M]⟩ : Shape).Idx → EReal :=
  fun i => ∑ k : Fin K, x (ix2 (⟨(i 0).val, (i 0).isLt⟩ : Fin N) k) * w (ix2 k (⟨(i 1).val, (i 1).isLt⟩ : Fin M))

/-- A bias row added to every row: entry (r, c) is a (r, c) + b (0, c). -/
def addRow {N M : ℕ} (a : (⟨2, ![N, M]⟩ : Shape).Idx → EReal) (b : (⟨2, ![1, M]⟩ : Shape).Idx → EReal) :
    (⟨2, ![N, M]⟩ : Shape).Idx → EReal :=
  fun i => a i + b (ix2 (0 : Fin 1) (⟨(i 1).val, (i 1).isLt⟩ : Fin M))

/-- A bias row added to every row and the sum clipped at zero: entry (r, c) is max (a (r, c) + b (0, c)) 0. -/
def addRowClip {N M : ℕ} (a : (⟨2, ![N, M]⟩ : Shape).Idx → EReal) (b : (⟨2, ![1, M]⟩ : Shape).Idx → EReal) :
    (⟨2, ![N, M]⟩ : Shape).Idx → EReal :=
  fun i => max (a i + b (ix2 (0 : Fin 1) (⟨(i 1).val, (i 1).isLt⟩ : Fin M))) (FloatOps.ofBits (F := Ideal) .f32 0x00000000#32)

end Cert.Layer

end
-- ==== Proof.LibPlainMatmul.lean ====
/-
  A plain matrix product [M, K] x [K, N] into the zero accumulator, read at an entry, over the extended reals.

  With dimension numbers "contract the left operand's axis 1 with the right operand's axis 0, no batch axes"
  (`DotDims.plain M K N`) the product's entry (r, c) is the sum over k of a (r, k) * b (k, c): the left operand is read at
  the output's row and the contraction coordinate, the right one at the contraction coordinate and the output's column.
  Stated at any extents, with indices written by their coordinates.
-/
import Idealize.ShloMosaic.Lib.ValueIdx
import Idealize.ShloMosaic.PureOps.Ideal.Laws

noncomputable section

namespace Cert.PlainMatmul

open Idealize.ShloMosaic Idealize.ShloMosaic.ValueIdx

variable {M K N : ℕ}

/-- The left operand's row coordinate is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (r, c) of the product into the zero accumulator is the sum over k of a (r, k) * b (k, c). -/
theorem apply (prec : Option ContractPrecision) {φ₁ φ₂ : FTy} (a : FVec Ideal ⟨2, ![M, K]⟩ φ₁) (b : FVec Ideal ⟨2, ![K, N]⟩ φ₂)
    (r : Fin M) (c : Fin N) :
    FloatOps.matmul (DotDims.plain M K N) prec a b (constant ⟨2, ![M, N]⟩ .f32 0x00000000#32) (ix2 r c)
      = ∑ k : Fin K, a (ix2 r k) * b (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (rhs_row _ _).trans hk
      | ⟨1, _⟩ => exact rhs_col _ _)
  rw [el, er]

end Cert.PlainMatmul

end
-- ==== Proof.TileMul.lean ====
/-
  The two row-tiled products of the kernel, each read as ONE function of the arrays its region finds.

  A region walks the 50000 rows in ten tiles of 5000. At tile t it multiplies rows 5000 t … 5000 t + 4999 of the left
  array by the whole weight matrix into a zero accumulator and writes the product back as rows 5000 t … of the result.
  An entry of a product reads one row of the left operand, so the ten write-backs together are the whole product
  (`Cert.Layer.rowsMul`), and they cover the result array.

  Per product: the tile's payload at an entry (the plain sum over the contracted axis, a change of format being the
  identity over the extended reals); where each window's block sits in its array (the row-tiled windows at block
  (t, 0), the weights at block (0, 0)); what tile t writes back is block t of the whole product; row r lies in tile
  r / 5000, so the tiles cover the result.
-/
import proofs.«158470_j22308060135605_1_alg».proof.Proof.Gen.KernelIdeal.Frame
import proofs.«158470_j22308060135605_1_alg».proof.Proof.Layer
import proofs.«158470_j22308060135605_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

namespace Cert.KernelIdeal.TileMul

open Cert.KernelIdeal Cert.KernelIdeal.Gen Idealize.ShloMosaic.ValueIdx

-- the TensorCore's buffer contents when a region is entered, at the ideal instance
variable (V : (c : Dev nD) → (b : Ref sig .tc) → Buf (Elt Ideal) ((c : Thread nD τ).loc b))

/-- The bodies load and store their whole buffers: offsets (0, 0). -/
theorem zero_offsets : (![0, 0] : Fin 2 → Nat) = fun _ => 0 := funext fun a => by fin_cases a <;> rfl

/-! ## The first product: [50000,128] x [128,128] -/

/-- The first product's dimension numbers: contract the left operand's columns with the right operand's rows. -/
theorem dims0_plain : dot_S5000x128_S128x128_S5000x128_1_0_0_1_n_n = DotDims.plain 5000 128 128 := rfl

/-- Entry (p, q) of a tile's product: row p of the tile against column q of the weights. -/
theorem tileMul0_apply (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  rw [dims0_plain]
  exact Cert.PlainMatmul.apply none (φ₁ := .bf16) (φ₂ := .bf16) x0 x1 p q

/-- The printed index maps over the grid: the row-tiled windows sit at block (t, 0), the weights at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left window's block at tile t is rows 5000 t … 5000 t + 4999 of the left array. -/
theorem left0_apply (c : Dev nD) (t : Fin cfg0.N) (x : S5000x128.Idx) (k : S50000x128.Idx)
    (hk0 : (k 0).val = 5000 * t.val + (x 0).val) (hk1 : (k 1).val = (x 1).val) :
    (iblk0 V c 0 t : Vec Ideal S5000x128 .f32) x = (V c main_arg0 : S50000x128.Idx → EReal) k := by
  obtain ⟨e0, e1, -⟩ := idx_facts0 t
  unfold iblk0
  rw [View.read_apply]
  show V c main_arg0 _ = V c main_arg0 _
  congr 1
  funext a
  apply Fin.ext
  match a with
  | ⟨0, _⟩ => show win0_0.index t 0 * 5000 + 1 * (x 0).val = (k 0).val; rw [e0, hk0]; omega
  | ⟨1, _⟩ => show win0_0.index t 1 * 128 + 1 * (x 1).val = (k 1).val; rw [e1, hk1]; omega

/-- The weights' window is the whole weight matrix at every tile. -/
theorem right0_apply (c : Dev nD) (t : Fin cfg0.N) (x : S128x128.Idx) :
    (iblk0 V c 1 t : Vec Ideal S128x128 .f32) x = (V c main_arg2 : S128x128.Idx → EReal) x := by
  obtain ⟨-, -, e2, e3, -⟩ := idx_facts0 t
  unfold iblk0
  rw [View.read_apply]
  show V c main_arg2 _ = V c main_arg2 _
  congr 1
  funext a
  apply Fin.ext
  match a with
  | ⟨0, _⟩ => show win0_1.index t 0 * 128 + 1 * (x 0).val = (x 0).val; rw [e2]; omega
  | ⟨1, _⟩ => show win0_1.index t 1 * 128 + 1 * (x 1).val = (x 1).val; rw [e3]; omega

/-- What tile t writes back is block t of the whole product. -/
theorem flushed_eq0 (c : Dev nD) (t : Fin cfg0.N) :
    (dat0 (F := Ideal) V c).flushed 2 t
      = ((cfg0.win 2).blk t).view.read (Elt Ideal)
          (Cert.Layer.rowsMul (N := 50000) (K := 128) (M := 128) (V c main_arg0) (V c main_arg2)) := by
  show (cfg0.win 2).cut (grid0.coords t) ((dat0 (F := Ideal) V c).after 2 t) = _
  rw [after0_2]
  unfold out0_2
  rw [View.canon_unit_zero zero_offsets]
  simp only [View.ld_unit_zero (S := S5000x128) zero_offsets, View.ld_unit_zero (S := S128x128) zero_offsets]
  funext j
  obtain ⟨p, q, rfl⟩ : ∃ (p : Fin 5000) (q : Fin 128), j = ix2 p q := ⟨j 0, j 1, eq_ix2 j⟩
  obtain ⟨-, -, -, -, e4, e5⟩ := idx_facts0 t
  show k0_pay1 (iblk0 V c 0 t) (iblk0 V c 1 t) (ix2 p q)
    = Cert.Layer.rowsMul (N := 50000) (K := 128) (M := 128) (V c main_arg0) (V c main_arg2) (((cfg0.win 2).blk t).view.emb (ix2 p q))
  refine (tileMul0_apply (iblk0 V c 0 t) (iblk0 V c 1 t) p q).trans ?_
  unfold Cert.Layer.rowsMul
  refine Finset.sum_congr rfl fun k _ => ?_
  refine congrArg₂ (· * ·) ?_ ?_
  · refine left0_apply V c t (ix2 p k) _ ?_ rfl
    show win0_2.index t 0 * 5000 + 1 * p.val = 5000 * t.val + p.val
    rw [e4]; omega
  · refine (right0_apply V c t (ix2 k q)).trans ?_
    refine congrArg (V c main_arg2 : S128x128.Idx → EReal) ?_
    funext a
    apply Fin.ext
    match a with
    | ⟨0, _⟩ => rfl
    | ⟨1, _⟩ => show q.val = win0_2.index t 1 * 128 + 1 * q.val; rw [e5]; omega

/-- An index of the result array is in tile t's block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Row r of the result lies in tile r / 5000: the ten tiles cover the array. -/
theorem cover0 (i : S50000x128.Idx) :
    ∃ t : Fin cfg0.N, (cfg0.win 2).flush t = true ∧ i ∈ ((cfg0.win 2).blk t).view.set := by
  have h0 : (i 0).val < 50000 := idx2_lt0 i
  have h1 : (i 1).val < 128 := idx2_lt1 i
  refine ⟨⟨(i 0).val / 5000, by rw [show cfg0.N = 10 from N_0]; omega⟩, flush0_2 _, ?_⟩
  rw [mem_blk0]
  obtain ⟨-, -, -, -, e4, e5⟩ := idx_facts0 ⟨(i 0).val / 5000, by rw [show cfg0.N = 10 from N_0]; omega⟩
  intro a
  match a with
  | ⟨0, _⟩ =>
    show win0_2.index _ 0 * 5000 ≤ (i 0).val ∧ (i 0).val < win0_2.index _ 0 * 5000 + 5000
    rw [e4]; show (i 0).val / 5000 * 5000 ≤ (i 0).val ∧ (i 0).val < (i 0).val / 5000 * 5000 + 5000; omega
  | ⟨1, _⟩ =>
    show win0_2.index _ 1 * 128 ≤ (i 1).val ∧ (i 1).val < win0_2.index _ 1 * 128 + 128
    rw [e5]; omega

/-- After the first product's region the result array holds the rows of the features times the first weight matrix. -/
theorem final0 (c : Dev nD) :
    (dat0 (F := Ideal) V c).arrAt 2 cfg0.N
      = Cert.Layer.rowsMul (N := 50000) (K := 128) (M := 128) (V c main_arg0) (V c main_arg2) :=
  (dat0 (F := Ideal) V c).arrAt_eq_of_cover 2
    (Cert.Layer.rowsMul (N := 50000) (K := 128) (M := 128) (V c main_arg0) (V c main_arg2))
    (fun t _ => flushed_eq0 V c t) cover0

/-! ## The second product: [50000,128] x [128,64] -/

/-- The second product's dimension numbers: the same contraction, onto 64 columns. -/
theorem dims2_plain : dot_S5000x128_S128x64_S5000x64_1_0_0_1_n_n = DotDims.plain 5000 128 64 := rfl

/-- Entry (p, q) of a tile's product: row p of the tile against column q of the weights. -/
theorem tileMul2_apply (x0 : Vec Ideal S5000x128 .f32) (x1 : Vec Ideal S128x64 .f32) (p : Fin 5000) (q : Fin 64) :
    k2_pay1 x0 x1 (ix2 p q) = ∑ k : Fin 128, x0 (ix2 p k) * x1 (ix2 k q) := by
  unfold k2_pay1
  rw [dims2_plain, shapeCast_self]
  exact Cert.PlainMatmul.apply none (φ₁ := .bf16) (φ₂ := .bf16) x0 x1 p q

/-- The printed index maps over the grid: the row-tiled windows sit at block (t, 0), the weights at block (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left window's block at tile t is rows 5000 t … 5000 t + 4999 of the left array. -/
theorem left2_apply (c : Dev nD) (t : Fin cfg2.N) (x : S5000x128.Idx) (k : S50000x128.Idx)
    (hk0 : (k 0).val = 5000 * t.val + (x 0).val) (hk1 : (k 1).val = (x 1).val) :
    (iblk2 V c 0 t : Vec Ideal S5000x128 .f32) x = (V c main_v45 : S50000x128.Idx → EReal) k := by
  obtain ⟨e0, e1, -⟩ := idx_facts2 t
  unfold iblk2
  rw [View.read_apply]
  show V c main_v45 _ = V c main_v45 _
  congr 1
  funext a
  apply Fin.ext
  match a with
  | ⟨0, _⟩ => show win2_0.index t 0 * 5000 + 1 * (x 0).val = (k 0).val; rw [e0, hk0]; omega
  | ⟨1, _⟩ => show win2_0.index t 1 * 128 + 1 * (x 1).val = (k 1).val; rw [e1, hk1]; omega

/-- The weights' window is the whole weight matrix at every tile. -/
theorem right2_apply (c : Dev nD) (t : Fin cfg2.N) (x : S128x64.Idx) :
    (iblk2 V c 1 t : Vec Ideal S128x64 .f32) x = (V c main_arg4 : S128x64.Idx → EReal) x := by
  obtain ⟨-, -, e2, e3, -⟩ := idx_facts2 t
  unfold iblk2
  rw [View.read_apply]
  show V c main_arg4 _ = V c main_arg4 _
  congr 1
  funext a
  apply Fin.ext
  match a with
  | ⟨0, _⟩ => show win2_1.index t 0 * 128 + 1 * (x 0).val = (x 0).val; rw [e2]; omega
  | ⟨1, _⟩ => show win2_1.index t 1 * 64 + 1 * (x 1).val = (x 1).val; rw [e3]; omega

/-- What tile t writes back is block t of the whole product. -/
theorem flushed_eq2 (c : Dev nD) (t : Fin cfg2.N) :
    (dat2 (F := Ideal) V c).flushed 2 t
      = ((cfg2.win 2).blk t).view.read (Elt Ideal)
          (Cert.Layer.rowsMul (N := 50000) (K := 128) (M := 64) (V c main_v45) (V c main_arg4)) := by
  show (cfg2.win 2).cut (grid2.coords t) ((dat2 (F := Ideal) V c).after 2 t) = _
  rw [after2_2]
  unfold out2_2
  rw [View.canon_unit_zero zero_offsets]
  simp only [View.ld_unit_zero (S := S5000x128) zero_offsets, View.ld_unit_zero (S := S128x64) zero_offsets]
  funext j
  obtain ⟨p, q, rfl⟩ : ∃ (p : Fin 5000) (q : Fin 64), j = ix2 p q := ⟨j 0, j 1, eq_ix2 j⟩
  obtain ⟨-, -, -, -, e4, e5⟩ := idx_facts2 t
  show k2_pay1 (iblk2 V c 0 t) (iblk2 V c 1 t) (ix2 p q)
    = Cert.Layer.rowsMul (N := 50000) (K := 128) (M := 64) (V c main_v45) (V c main_arg4) (((cfg2.win 2).blk t).view.emb (ix2 p q))
  refine (tileMul2_apply (iblk2 V c 0 t) (iblk2 V c 1 t) p q).trans ?_
  unfold Cert.Layer.rowsMul
  refine Finset.sum_congr rfl fun k _ => ?_
  refine congrArg₂ (· * ·) ?_ ?_
  · refine left2_apply V c t (ix2 p k) _ ?_ rfl
    show win2_2.index t 0 * 5000 + 1 * p.val = 5000 * t.val + p.val
    rw [e4]; omega
  · refine (right2_apply V c t (ix2 k q)).trans ?_
    refine congrArg (V c main_arg4 : S128x64.Idx → EReal) ?_
    funext a
    apply Fin.ext
    match a with
    | ⟨0, _⟩ => rfl
    | ⟨1, _⟩ => show q.val = win2_2.index t 1 * 64 + 1 * q.val; rw [e5]; omega

/-- An index of the result array is in tile t's block iff each coordinate is in the block's range on its axis. -/
theorem mem_blk2 (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v46).slice (win2_2.rect t)).set ↔ _
  rw [View.set_slice_whole, Rect.mem_set_unit]
  exact Iff.rfl

/-- Row r of the result lies in tile r / 5000: the ten tiles cover the array. -/
theorem cover2 (i : S50000x64.Idx) :
    ∃ t : Fin cfg2.N, (cfg2.win 2).flush t = true ∧ i ∈ ((cfg2.win 2).blk t).view.set := by
  have h0 : (i 0).val < 50000 := idx2_lt0 i
  have h1 : (i 1).val < 64 := idx2_lt1 i
  refine ⟨⟨(i 0).val / 5000, by rw [show cfg2.N = 10 from N_2]; omega⟩, flush2_2 _, ?_⟩
  rw [mem_blk2]
  obtain ⟨-, -, -, -, e4, e5⟩ := idx_facts2 ⟨(i 0).val / 5000, by rw [show cfg2.N = 10 from N_2]; omega⟩
  intro a
  match a with
  | ⟨0, _⟩ =>
    show win2_2.index _ 0 * 5000 ≤ (i 0).val ∧ (i 0).val < win2_2.index _ 0 * 5000 + 5000
    rw [e4]; show (i 0).val / 5000 * 5000 ≤ (i 0).val ∧ (i 0).val < (i 0).val / 5000 * 5000 + 5000; omega
  | ⟨1, _⟩ =>
    show win2_2.index _ 1 * 64 ≤ (i 1).val ∧ (i 1).val < win2_2.index _ 1 * 64 + 64
    rw [e5]; omega

/-- After the second product's region the result array holds the rows of the hidden features times the second weight matrix. -/
theorem final2 (c : Dev nD) :
    (dat2 (F := Ideal) V c).arrAt 2 cfg2.N
      = Cert.Layer.rowsMul (N := 50000) (K := 128) (M := 64) (V c main_v45) (V c main_arg4) :=
  (dat2 (F := Ideal) V c).arrAt_eq_of_cover 2
    (Cert.Layer.rowsMul (N := 50000) (K := 128) (M := 64) (V c main_v45) (V c main_arg4))
    (fun t _ => flushed_eq2 V c t) cover2

end Cert.KernelIdeal.TileMul

end
-- ==== Proof.TileBias.lean ====
/-
  The two row-tiled bias steps of the kernel, each read as ONE function of the arrays its region finds.

  A region walks the 50000 rows in ten tiles of 5000. At tile t it adds the [1, M] bias row to every row of rows
  5000 t … 5000 t + 4999 of the aggregated array (and, in the first layer, clips the sum at zero) and writes the tile back
  as rows 5000 t … of the result. The operation is entry by entry, so the ten write-backs together are the whole-array
  function (`Cert.Layer.addRowClip`, `Cert.Layer.addRow`), and they cover the result array.
-/
import proofs.«158470_j22308060135605_1_alg».proof.Proof.Gen.KernelIdeal.Frame
import proofs.«158470_j22308060135605_1_alg».proof.Proof.Layer
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

namespace Cert.KernelIdeal.TileBias

open Cert.KernelIdeal Cert.KernelIdeal.Gen Idealize.ShloMosaic.ValueIdx

-- the TensorCore's buffer contents when a region is entered, at the ideal instance
variable (V : (c : Dev nD) → (b : Ref sig .tc) → Buf (Elt Ideal) ((c : Thread nD τ).loc b))

/-- The body's accesses start at the tile's origin: the offsets (0, 0) are the zero function. -/
theorem origin : (![0, 0] : Fin 2 → Nat) = fun _ => 0 := funext fun a => by fin_cases a <;> rfl

/-! ## The first bias step: rows plus the bias row, clipped at zero -/

/-- Entry (p, q) of a tile after the first step: the tile's entry plus the bias row's entry in column q, clipped at
    zero. The two same-shape casts are identities and the row broadcast down the tile reads row 0. -/
theorem clip_at (x0 : Vec Ideal S5000x128 .f32) (x1 : Vec Ideal S1x128 .f32) (p : Fin 5000) (q : Fin 128) :
    k1_pay1 x0 x1 (ix2 p q)
      = max (x0 (ix2 p q) + x1 (ix2 (0 : Fin 1) q)) (FloatOps.ofBits (F := Ideal) .f32 0x00000000#32) := by
  unfold k1_pay1
  simp only [shapeCast_self]
  refine congrArg₂ max (congrArg₂ (· + ·) rfl (broadcastTo_1b_ab_apply _ _ p q)) rfl

/-- The clipped sum of an entry of the rows at i0 and an entry of the bias row at i1 is the whole-array function at
    i2 as soon as i0 is i2 and i1 is (0, column of i2). -/
theorem clip_entry (a : S50000x128.Idx → EReal) (b : S1x128.Idx → EReal) (i0 i2 : S50000x128.Idx) (i1 : S1x128.Idx)
    (h0 : i0 = i2) (h1 : i1 = ix2 (0 : Fin 1) (⟨(i2 1).val, (i2 1).isLt⟩ : Fin 128)) :
    max (a i0 + b i1) (FloatOps.ofBits (F := Ideal) .f32 0x00000000#32)
      = Cert.Layer.addRowClip (N := 50000) (M := 128) a b i2 := by
  subst h0; subst h1; rfl

/-- Where the windows sit at tile t: the rows' window and the result's window at block (t, 0), the bias row's window
    at block (0, 0). Decided over the ten tiles. -/
theorem blocks1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What tile t writes back is tile t of the whole-array function of the arrays the region finds. -/
theorem flushed1_eq (c : Dev nD) (t : Fin cfg1.N) :
    (dat1 (F := Ideal) V c).flushed 2 t
      = ((cfg1.win 2).blk t).view.read (Elt Ideal)
          (Cert.Layer.addRowClip (N := 50000) (M := 128) (V c main_v43) (V c main_v44)) := by
  show (cfg1.win 2).cut (grid1.coords t) ((dat1 (F := Ideal) V c).after 2 t) = _
  rw [after1_2]
  unfold out1_2
  rw [View.canon_unit_zero origin]
  simp only [View.ld_unit_zero (S := S5000x128) origin, View.ld_unit_zero (S := S1x128) origin]
  obtain ⟨e0, e1, e2, e3, e4, e5⟩ := blocks1 t
  funext j
  obtain ⟨p, q, rfl⟩ : ∃ (p : Fin 5000) (q : Fin 128), j = ix2 p q := ⟨j 0, j 1, eq_ix2 j⟩
  show k1_pay1 (iblk1 V c 0 t) (iblk1 V c 1 t) (ix2 p q)
    = Cert.Layer.addRowClip (N := 50000) (M := 128) (V c main_v43) (V c main_v44)
        (((cfg1.win 2).blk t).view.emb (ix2 p q))
  refine (clip_at (iblk1 V c 0 t) (iblk1 V c 1 t) p q).trans ?_
  -- entry (p, q) of the rows' tile and of the result's tile is the same entry (5000 t + p, q) of the array
  have h0 : ((cfg1.win 0).blk t).view.emb (ix2 p q) = ((cfg1.win 2).blk t).view.emb (ix2 p q) := by
    funext a; apply Fin.ext
    match a with
    | ⟨0, _⟩ =>
      show win1_0.index t (0 : Fin 2) * 5000 + 1 * p.val = win1_2.index t (0 : Fin 2) * 5000 + 1 * p.val; omega
    | ⟨1, _⟩ =>
      show win1_0.index t (1 : Fin 2) * 128 + 1 * q.val = win1_2.index t (1 : Fin 2) * 128 + 1 * q.val; omega
  -- entry (0, q) of the bias row's one block is entry (0, q) of the bias row
  have h1 : ((cfg1.win 1).blk t).view.emb (ix2 (0 : Fin 1) q)
      = ix2 (0 : Fin 1) (⟨(((cfg1.win 2).blk t).view.emb (ix2 p q) 1).val,
          (((cfg1.win 2).blk t).view.emb (ix2 p q) 1).isLt⟩ : Fin 128) := by
    funext a; apply Fin.ext
    match a with
    | ⟨0, _⟩ => show win1_1.index t (0 : Fin 2) * 1 + 1 * 0 = 0; omega
    | ⟨1, _⟩ =>
      show win1_1.index t (1 : Fin 2) * 128 + 1 * q.val = win1_2.index t (1 : Fin 2) * 128 + 1 * q.val; omega
  exact clip_entry (V c main_v43) (V c main_v44) (((cfg1.win 0).blk t).view.emb (ix2 p q))
    (((cfg1.win 2).blk t).view.emb (ix2 p q)) (((cfg1.win 1).blk t).view.emb (ix2 (0 : Fin 1) q)) h0 h1

/-- An entry of the result array is in tile t's block iff each coordinate is in the block's range on its axis. -/
theorem mem_blk1 (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v45).slice (win1_2.rect t)).set ↔ _
  rw [View.set_slice_whole, Rect.mem_set_unit]
  exact Iff.rfl

/-- Every entry of the result array is in some tile's block: row r is in tile r / 5000. -/
theorem cover1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨e0, e1, e2, e3, e4, e5⟩ := blocks1 t
  refine ⟨t, flush1_2 t, ?_⟩
  rw [mem_blk1]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 128 ≤ (i 1).val ∧ (i 1).val < win1_2.index t (1 : Fin 2) * 128 + 128
    omega

/-- After the first bias region the result array holds the aggregated rows plus the bias row, clipped at zero. -/
theorem final1 (c : Dev nD) :
    (dat1 (F := Ideal) V c).arrAt 2 cfg1.N
      = Cert.Layer.addRowClip (N := 50000) (M := 128) (V c main_v43) (V c main_v44) := by
  exact (dat1 (F := Ideal) V c).arrAt_eq_of_cover 2
    (Cert.Layer.addRowClip (N := 50000) (M := 128) (V c main_v43) (V c main_v44))
    (fun t _ => flushed1_eq V c t) cover1

/-! ## The second bias step: rows plus the bias row -/

/-- Entry (p, q) of a tile after the second step: the tile's entry plus the bias row's entry in column q. -/
theorem sum_at (x0 : Vec Ideal S5000x64 .f32) (x1 : Vec Ideal S1x64 .f32) (p : Fin 5000) (q : Fin 64) :
    k3_pay1 x0 x1 (ix2 p q) = x0 (ix2 p q) + x1 (ix2 (0 : Fin 1) q) := by
  unfold k3_pay1
  simp only [shapeCast_self]
  refine congrArg₂ (· + ·) rfl (broadcastTo_1b_ab_apply _ _ p q)

/-- The sum of an entry of the rows at i0 and an entry of the bias row at i1 is the whole-array function at i2 as
    soon as i0 is i2 and i1 is (0, column of i2). -/
theorem sum_entry (a : S50000x64.Idx → EReal) (b : S1x64.Idx → EReal) (i0 i2 : S50000x64.Idx) (i1 : S1x64.Idx)
    (h0 : i0 = i2) (h1 : i1 = ix2 (0 : Fin 1) (⟨(i2 1).val, (i2 1).isLt⟩ : Fin 64)) :
    a i0 + b i1 = Cert.Layer.addRow (N := 50000) (M := 64) a b i2 := by
  subst h0; subst h1; rfl

/-- Where the windows sit at tile t: the rows' window and the result's window at block (t, 0), the bias row's window
    at block (0, 0). Decided over the ten tiles. -/
theorem blocks3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What tile t writes back is tile t of the whole-array function of the arrays the region finds. -/
theorem flushed3_eq (c : Dev nD) (t : Fin cfg3.N) :
    (dat3 (F := Ideal) V c).flushed 2 t
      = ((cfg3.win 2).blk t).view.read (Elt Ideal)
          (Cert.Layer.addRow (N := 50000) (M := 64) (V c main_v59) (V c main_v60)) := by
  show (cfg3.win 2).cut (grid3.coords t) ((dat3 (F := Ideal) V c).after 2 t) = _
  rw [after3_2]
  unfold out3_2
  rw [View.canon_unit_zero origin]
  simp only [View.ld_unit_zero (S := S5000x64) origin, View.ld_unit_zero (S := S1x64) origin]
  obtain ⟨e0, e1, e2, e3, e4, e5⟩ := blocks3 t
  funext j
  obtain ⟨p, q, rfl⟩ : ∃ (p : Fin 5000) (q : Fin 64), j = ix2 p q := ⟨j 0, j 1, eq_ix2 j⟩
  show k3_pay1 (iblk3 V c 0 t) (iblk3 V c 1 t) (ix2 p q)
    = Cert.Layer.addRow (N := 50000) (M := 64) (V c main_v59) (V c main_v60)
        (((cfg3.win 2).blk t).view.emb (ix2 p q))
  refine (sum_at (iblk3 V c 0 t) (iblk3 V c 1 t) p q).trans ?_
  -- entry (p, q) of the rows' tile and of the result's tile is the same entry (5000 t + p, q) of the array
  have h0 : ((cfg3.win 0).blk t).view.emb (ix2 p q) = ((cfg3.win 2).blk t).view.emb (ix2 p q) := by
    funext a; apply Fin.ext
    match a with
    | ⟨0, _⟩ =>
      show win3_0.index t (0 : Fin 2) * 5000 + 1 * p.val = win3_2.index t (0 : Fin 2) * 5000 + 1 * p.val; omega
    | ⟨1, _⟩ =>
      show win3_0.index t (1 : Fin 2) * 64 + 1 * q.val = win3_2.index t (1 : Fin 2) * 64 + 1 * q.val; omega
  -- entry (0, q) of the bias row's one block is entry (0, q) of the bias row
  have h1 : ((cfg3.win 1).blk t).view.emb (ix2 (0 : Fin 1) q)
      = ix2 (0 : Fin 1) (⟨(((cfg3.win 2).blk t).view.emb (ix2 p q) 1).val,
          (((cfg3.win 2).blk t).view.emb (ix2 p q) 1).isLt⟩ : Fin 64) := by
    funext a; apply Fin.ext
    match a with
    | ⟨0, _⟩ => show win3_1.index t (0 : Fin 2) * 1 + 1 * 0 = 0; omega
    | ⟨1, _⟩ =>
      show win3_1.index t (1 : Fin 2) * 64 + 1 * q.val = win3_2.index t (1 : Fin 2) * 64 + 1 * q.val; omega
  exact sum_entry (V c main_v59) (V c main_v60) (((cfg3.win 0).blk t).view.emb (ix2 p q))
    (((cfg3.win 2).blk t).view.emb (ix2 p q)) (((cfg3.win 1).blk t).view.emb (ix2 (0 : Fin 1) q)) h0 h1

/-- An entry of the result array is in tile t's block iff each coordinate is in the block's range on its axis. -/
theorem mem_blk3 (t : Fin cfg3.N) (i : S50000x64.Idx) :
    i ∈ ((cfg3.win 2).blk t).view.set ↔ ∀ a : Fin 2, win3_2.index t a * S5000x64.size a ≤ (i a).val
      ∧ (i a).val < win3_2.index t a * S5000x64.size a + S5000x64.size a := by
  show i ∈ ((View.whole main_v61).slice (win3_2.rect t)).set ↔ _
  rw [View.set_slice_whole, Rect.mem_set_unit]
  exact Iff.rfl

/-- Every entry of the result array is in some tile's block: row r is in tile r / 5000. -/
theorem cover3 (i : S50000x64.Idx) :
    ∃ t : Fin cfg3.N, (cfg3.win 2).flush t = true ∧ i ∈ ((cfg3.win 2).blk t).view.set := by
  have hi0 : (i 0).val < 50000 := (i 0).isLt
  have hi1 : (i 1).val < 64 := (i 1).isLt
  have hN : cfg3.N = 10 := N_3
  obtain ⟨t, ht⟩ : ∃ t : Fin cfg3.N, t.val = (i 0).val / 5000 := ⟨⟨(i 0).val / 5000, by rw [hN]; omega⟩, rfl⟩
  obtain ⟨e0, e1, e2, e3, e4, e5⟩ := blocks3 t
  refine ⟨t, flush3_2 t, ?_⟩
  rw [mem_blk3]
  intro a
  match a with
  | ⟨0, _⟩ =>
    show win3_2.index t (0 : Fin 2) * 5000 ≤ (i 0).val ∧ (i 0).val < win3_2.index t (0 : Fin 2) * 5000 + 5000
    omega
  | ⟨1, _⟩ =>
    show win3_2.index t (1 : Fin 2) * 64 ≤ (i 1).val ∧ (i 1).val < win3_2.index t (1 : Fin 2) * 64 + 64
    omega

/-- After the second bias region the result array holds the aggregated rows plus the bias row. -/
theorem final3 (c : Dev nD) :
    (dat3 (F := Ideal) V c).arrAt 2 cfg3.N
      = Cert.Layer.addRow (N := 50000) (M := 64) (V c main_v59) (V c main_v60) := by
  exact (dat3 (F := Ideal) V c).arrAt_eq_of_cover 2
    (Cert.Layer.addRow (N := 50000) (M := 64) (V c main_v59) (V c main_v60))
    (fun t _ => flushed3_eq V c t) cover3

end Cert.KernelIdeal.TileBias

end
-- ==== Proof.LayerStages.lean ====
/-
  The dense pieces of the layers, as the reference computes them.

  The reference's product of the node features with a weight matrix (its `dot_general`) is, entry by entry, the sum
  over the contracted axis; its bias is the vector read through a [1, M] row broadcast down all rows; its clip is the
  maximum with a zero array. Here the whole-array functions of Layer.lean are identified with those stages: the product
  with the stage of the reference's product, "add the bias row (and clip)" with the stage after the reference's add (and
  maximum), when the bias row is the bias vector cast to one row.
-/
import proofs.«158470_j22308060135605_1_alg».proof.Proof.Layer
import proofs.«158470_j22308060135605_1_alg».proof.Proof.RefRead
import Idealize.ShloMosaic.Lib.ValueIdx
import Idealize.ShloMosaic.Lib.ValueLayout
import Idealize.ShloMosaic.Lib.Pipeline.Value

noncomputable section

open Idealize.ShloMosaic Idealize.ShloMosaic.TcCoe Idealize.ShloMosaic.ValueIdx

namespace Cert.LayerStages

open Cert.ReferenceIdeal Cert.ReferenceIdeal.ReadP

variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 : (⟨S128, .f32⟩ : BufTy).Contents (Elt Ideal))
  (x4 : (⟨S128x64, .f32⟩ : BufTy).Contents (Elt Ideal)) (x5 : (⟨S64, .f32⟩ : BufTy).Contents (Elt Ideal))

/-- The rows of the features times the first weight matrix are the reference's first product. -/
theorem rowsMul_v30 :
    Cert.Layer.rowsMul (N := 50000) (K := 128) (M := 128) x0 x2 = val_main_v30 (F := Ideal) x0 x2 := by
  funext i
  rw [val_main_v30_apply]
  unfold Cert.Layer.rowsMul
  refine Finset.sum_congr rfl fun k _ => ?_
  refine congrArg₂ (· * ·) (congrArg x0 ?_) (congrArg x2 ?_)
  · funext a; match a with | ⟨0, _⟩ => rfl | ⟨1, _⟩ => rfl
  · funext a; match a with | ⟨0, _⟩ => rfl | ⟨1, _⟩ => rfl

/-- The aggregated rows plus the bias row, clipped at zero, are the reference's hidden features, when the bias row is the
    bias vector cast to one row. -/
theorem addRowClip_v47 (h : (S128 : Shape).ShapeCasts S1x128) :
    Cert.Layer.addRowClip (N := 50000) (M := 128) (val_main_v43 (F := Ideal) x0 x1 x2) (shapeCast S1x128 x3 h)
      = val_main_v47 (F := Ideal) x0 x1 x2 x3 := by
  funext i
  rw [val_main_v47_apply, val_main_v46_apply, val_main_v45_apply, val_main_v44_apply, val_main_call1_v0_apply, val_main_call1_cst_apply]
  unfold Cert.Layer.addRowClip
  rw [shapeCast_a_1a_apply]
  refine congrArg₂ max (congrArg₂ (· + ·) rfl (congrArg x3 ?_)) rfl
  funext a; match a with | ⟨0, _⟩ => rfl

/-- The rows of the hidden features times the second weight matrix are the reference's second product. -/
theorem rowsMul_v48 :
    Cert.Layer.rowsMul (N := 50000) (K := 128) (M := 64) (val_main_v47 (F := Ideal) x0 x1 x2 x3) x4
      = val_main_v48 (F := Ideal) x0 x1 x2 x3 x4 := by
  funext i
  rw [val_main_v48_apply]
  unfold Cert.Layer.rowsMul
  refine Finset.sum_congr rfl fun k _ => ?_
  refine congrArg₂ (· * ·) (congrArg (val_main_v47 (F := Ideal) x0 x1 x2 x3) ?_) (congrArg x4 ?_)
  · funext a; match a with | ⟨0, _⟩ => rfl | ⟨1, _⟩ => rfl
  · funext a; match a with | ⟨0, _⟩ => rfl | ⟨1, _⟩ => rfl

/-- The second layer's aggregated rows plus the bias row are the reference's result, when the bias row is the bias vector
    cast to one row. -/
theorem addRow_v64 (h : (S64 : Shape).ShapeCasts S1x64) :
    Cert.Layer.addRow (N := 50000) (M := 64) (val_main_v61 (F := Ideal) x0 x1 x2 x3 x4) (shapeCast S1x64 x5 h)
      = val_main_v64 (F := Ideal) x0 x1 x2 x3 x4 x5 := by
  funext i
  rw [val_main_v64_apply, val_main_v63_apply, val_main_v62_apply]
  unfold Cert.Layer.addRow
  rw [shapeCast_a_1a_apply]
  refine congrArg₂ (· + ·) rfl (congrArg x5 ?_)
  funext a; match a with | ⟨0, _⟩ => rfl

end Cert.LayerStages

end
-- ==== Proof.Bridge.lean ====
/-
  The kernel's result array, read through the whole program.

  The program alternates host stretches and row-tiled regions. Boundary by boundary, the buffers that matter hold the
  reference's stages of the launch arguments: after the first stretches the edge list and the per-edge weights; after the
  first region the product of the features with the first weight matrix; after the next stretch the first layer's
  aggregation and the bias row; after the second and third regions the hidden features and their product with the second
  weight matrix; after the last stretch the second layer's aggregation; and after the last region the result. A buffer
  that a stretch or region does not write keeps what it held.
-/
import proofs.«158470_j22308060135605_1_alg».proof.Proof.Gen.KernelIdeal.Frame
import proofs.«158470_j22308060135605_1_alg».proof.Proof.HostChain
import proofs.«158470_j22308060135605_1_alg».proof.Proof.TileMul
import proofs.«158470_j22308060135605_1_alg».proof.Proof.TileBias
import proofs.«158470_j22308060135605_1_alg».proof.Proof.LayerStages

set_option maxRecDepth 16384

noncomputable section

open Idealize.ShloMosaic Idealize.ShloMosaic.TcCoe Idealize.SL.Sem Idealize.ShloMosaic.StableHlo

namespace Cert.KernelIdeal.Bridge

open Cert.KernelIdeal Cert.KernelIdeal.Gen Cert.ReferenceIdeal.ReadP

variable (m : (ℓ : Loc nD τ sig) → Buf (Elt Ideal) ℓ) (ρ : Dev nD → PrngReg)

/-! ## The launch arguments, as the stages take them -/

abbrev a0 (c : Dev nD) : (⟨Cert.ReferenceIdeal.S50000x128, .f32⟩ : BufTy).Contents (Elt Ideal) := m ((c.tc : Thread nD τ).loc main_arg0)
abbrev a1 (c : Dev nD) : (⟨Cert.ReferenceIdeal.S2x800000, .i32⟩ : BufTy).Contents (Elt Ideal) := m ((c.tc : Thread nD τ).loc main_arg1)
abbrev a2 (c : Dev nD) : (⟨Cert.ReferenceIdeal.S128x128, .f32⟩ : BufTy).Contents (Elt Ideal) := m ((c.tc : Thread nD τ).loc main_arg2)
abbrev a3 (c : Dev nD) : (⟨Cert.ReferenceIdeal.S128, .f32⟩ : BufTy).Contents (Elt Ideal) := m ((c.tc : Thread nD τ).loc main_arg3)
abbrev a4 (c : Dev nD) : (⟨Cert.ReferenceIdeal.S128x64, .f32⟩ : BufTy).Contents (Elt Ideal) := m ((c.tc : Thread nD τ).loc main_arg4)
abbrev a5 (c : Dev nD) : (⟨Cert.ReferenceIdeal.S64, .f32⟩ : BufTy).Contents (Elt Ideal) := m ((c.tc : Thread nD τ).loc main_arg5)

/-! ## Before the first region -/

theorem W1_arg0 (c : Dev nD) : W1 m ρ c (Proc.devRef .tc main_arg0) = a0 m c :=
  (StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W1 m ρ c (Proc.devRef .tc main_arg0) = W0 m ρ c (Proc.devRef .tc main_arg0))
theorem W1_arg1 (c : Dev nD) : W1 m ρ c (Proc.devRef .tc main_arg1) = a1 m c :=
  (StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W1 m ρ c (Proc.devRef .tc main_arg1) = W0 m ρ c (Proc.devRef .tc main_arg1))
theorem W1_arg2 (c : Dev nD) : W1 m ρ c (Proc.devRef .tc main_arg2) = a2 m c :=
  (StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W1 m ρ c (Proc.devRef .tc main_arg2) = W0 m ρ c (Proc.devRef .tc main_arg2))
theorem W1_arg3 (c : Dev nD) : W1 m ρ c (Proc.devRef .tc main_arg3) = a3 m c :=
  (StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W1 m ρ c (Proc.devRef .tc main_arg3) = W0 m ρ c (Proc.devRef .tc main_arg3))
theorem W1_arg4 (c : Dev nD) : W1 m ρ c (Proc.devRef .tc main_arg4) = a4 m c :=
  (StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W1 m ρ c (Proc.devRef .tc main_arg4) = W0 m ρ c (Proc.devRef .tc main_arg4))
theorem W1_arg5 (c : Dev nD) : W1 m ρ c (Proc.devRef .tc main_arg5) = a5 m c :=
  (StableHlo.after_of_forall_not_mem (b := Proc.devRef .tc main_arg5) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W1 m ρ c (Proc.devRef .tc main_arg5) = W0 m ρ c (Proc.devRef .tc main_arg5))

theorem W1_v5 (c : Dev nD) : W1 m ρ c (Proc.devRef .tc main_v5) = val_main_v5 (F := Ideal) (a1 m c) := Chain.s0_v5 (W0 m ρ c) (a1 m c) rfl
theorem W1_v6 (c : Dev nD) : W1 m ρ c (Proc.devRef .tc main_v6) = val_main_v6 (F := Ideal) (a1 m c) := Chain.s0_v6 (W0 m ρ c) (a1 m c) rfl
theorem W1_v12 (c : Dev nD) : W1 m ρ c (Proc.devRef .tc main_v12) = val_main_v12 (F := Ideal) (a1 m c) := Chain.s0_v12 (W0 m ρ c) (a1 m c) rfl
theorem W1_v13 (c : Dev nD) : W1 m ρ c (Proc.devRef .tc main_v13) = val_main_v13 (F := Ideal) (a1 m c) := Chain.s0_v13 (W0 m ρ c) (a1 m c) rfl
theorem W1_cst2 (c : Dev nD) : W1 m ρ c (Proc.devRef .tc main_cst_2) = val_main_cst_2 (F := Ideal) := Chain.s0_cst2 (W0 m ρ c)

theorem W2_arg0 (c : Dev nD) : W2 m ρ c (Proc.devRef .tc main_arg0) = a0 m c :=
  ((StableHlo.after_of_forall_not_mem (b := Proc.devRef .tc main_arg0) _ _ (List.forall_iff_forall_mem.mp (by
          simp only [hostOps0_1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W2 m ρ c (Proc.devRef .tc main_arg0) = W1 m ρ c (Proc.devRef .tc main_arg0))).trans (W1_arg0 m ρ c)
theorem W2_arg2 (c : Dev nD) : W2 m ρ c (Proc.devRef .tc main_arg2) = a2 m c :=
  ((StableHlo.after_of_forall_not_mem (b := Proc.devRef .tc main_arg2) _ _ (List.forall_iff_forall_mem.mp (by
          simp only [hostOps0_1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W2 m ρ c (Proc.devRef .tc main_arg2) = W1 m ρ c (Proc.devRef .tc main_arg2))).trans (W1_arg2 m ρ c)
theorem W2_arg3 (c : Dev nD) : W2 m ρ c (Proc.devRef .tc main_arg3) = a3 m c :=
  ((StableHlo.after_of_forall_not_mem (b := Proc.devRef .tc main_arg3) _ _ (List.forall_iff_forall_mem.mp (by
          simp only [hostOps0_1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W2 m ρ c (Proc.devRef .tc main_arg3) = W1 m ρ c (Proc.devRef .tc main_arg3))).trans (W1_arg3 m ρ c)
theorem W2_arg4 (c : Dev nD) : W2 m ρ c (Proc.devRef .tc main_arg4) = a4 m c :=
  ((StableHlo.after_of_forall_not_mem (b := Proc.devRef .tc main_arg4) _ _ (List.forall_iff_forall_mem.mp (by
          simp only [hostOps0_1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W2 m ρ c (Proc.devRef .tc main_arg4) = W1 m ρ c (Proc.devRef .tc main_arg4))).trans (W1_arg4 m ρ c)
theorem W2_arg5 (c : Dev nD) : W2 m ρ c (Proc.devRef .tc main_arg5) = a5 m c :=
  ((StableHlo.after_of_forall_not_mem (b := Proc.devRef .tc main_arg5) _ _ (List.forall_iff_forall_mem.mp (by
          simp only [hostOps0_1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W2 m ρ c (Proc.devRef .tc main_arg5) = W1 m ρ c (Proc.devRef .tc main_arg5))).trans (W1_arg5 m ρ c)
theorem W2_v5 (c : Dev nD) : W2 m ρ c (Proc.devRef .tc main_v5) = val_main_v5 (F := Ideal) (a1 m c) :=
  ((StableHlo.after_of_forall_not_mem (b := Proc.devRef .tc main_v5) _ _ (List.forall_iff_forall_mem.mp (by
          simp only [hostOps0_1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W2 m ρ c (Proc.devRef .tc main_v5) = W1 m ρ c (Proc.devRef .tc main_v5))).trans (W1_v5 m ρ c)
theorem W2_v6 (c : Dev nD) : W2 m ρ c (Proc.devRef .tc main_v6) = val_main_v6 (F := Ideal) (a1 m c) :=
  ((StableHlo.after_of_forall_not_mem (b := Proc.devRef .tc main_v6) _ _ (List.forall_iff_forall_mem.mp (by
          simp only [hostOps0_1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W2 m ρ c (Proc.devRef .tc main_v6) = W1 m ρ c (Proc.devRef .tc main_v6))).trans (W1_v6 m ρ c)
theorem W2_v14 (c : Dev nD) : W2 m ρ c (Proc.devRef .tc main_v14) = val_main_v14 (F := Ideal) (a1 m c) :=
  Chain.s01_v14 (W1 m ρ c) (a1 m c) (W1_v12 m ρ c) (W1_v13 m ρ c) (W1_cst2 m ρ c)

theorem W3_arg0 (c : Dev nD) : W3 m ρ c (Proc.devRef .tc main_arg0) = a0 m c :=
  ((StableHlo.after_of_forall_not_mem (b := Proc.devRef .tc main_arg0) _ _ (List.forall_iff_forall_mem.mp (by
          simp only [hostOps0_2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W3 m ρ c (Proc.devRef .tc main_arg0) = W2 m ρ c (Proc.devRef .tc main_arg0))).trans (W2_arg0 m ρ c)
theorem W3_arg2 (c : Dev nD) : W3 m ρ c (Proc.devRef .tc main_arg2) = a2 m c :=
  ((StableHlo.after_of_forall_not_mem (b := Proc.devRef .tc main_arg2) _ _ (List.forall_iff_forall_mem.mp (by
          simp only [hostOps0_2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W3 m ρ c (Proc.devRef .tc main_arg2) = W2 m ρ c (Proc.devRef .tc main_arg2))).trans (W2_arg2 m ρ c)
theorem W3_arg3 (c : Dev nD) : W3 m ρ c (Proc.devRef .tc main_arg3) = a3 m c :=
  ((StableHlo.after_of_forall_not_mem (b := Proc.devRef .tc main_arg3) _ _ (List.forall_iff_forall_mem.mp (by
          simp only [hostOps0_2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W3 m ρ c (Proc.devRef .tc main_arg3) = W2 m ρ c (Proc.devRef .tc main_arg3))).trans (W2_arg3 m ρ c)
theorem W3_arg4 (c : Dev nD) : W3 m ρ c (Proc.devRef .tc main_arg4) = a4 m c :=
  ((StableHlo.after_of_forall_not_mem (b := Proc.devRef .tc main_arg4) _ _ (List.forall_iff_forall_mem.mp (by
          simp only [hostOps0_2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W3 m ρ c (Proc.devRef .tc main_arg4) = W2 m ρ c (Proc.devRef .tc main_arg4))).trans (W2_arg4 m ρ c)
theorem W3_arg5 (c : Dev nD) : W3 m ρ c (Proc.devRef .tc main_arg5) = a5 m c :=
  ((StableHlo.after_of_forall_not_mem (b := Proc.devRef .tc main_arg5) _ _ (List.forall_iff_forall_mem.mp (by
          simp only [hostOps0_2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W3 m ρ c (Proc.devRef .tc main_arg5) = W2 m ρ c (Proc.devRef .tc main_arg5))).trans (W2_arg5 m ρ c)
theorem W3_v5 (c : Dev nD) : W3 m ρ c (Proc.devRef .tc main_v5) = val_main_v5 (F := Ideal) (a1 m c) :=
  ((StableHlo.after_of_forall_not_mem (b := Proc.devRef .tc main_v5) _ _ (List.forall_iff_forall_mem.mp (by
          simp only [hostOps0_2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W3 m ρ c (Proc.devRef .tc main_v5) = W2 m ρ c (Proc.devRef .tc main_v5))).trans (W2_v5 m ρ c)
theorem W3_v6 (c : Dev nD) : W3 m ρ c (Proc.devRef .tc main_v6) = val_main_v6 (F := Ideal) (a1 m c) :=
  ((StableHlo.after_of_forall_not_mem (b := Proc.devRef .tc main_v6) _ _ (List.forall_iff_forall_mem.mp (by
          simp only [hostOps0_2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W3 m ρ c (Proc.devRef .tc main_v6) = W2 m ρ c (Proc.devRef .tc main_v6))).trans (W2_v6 m ρ c)
/-- The per-edge weights, when the first region is entered. -/
theorem W3_v29 (c : Dev nD) : W3 m ρ c (Proc.devRef .tc main_v29) = val_main_v29 (F := Ideal) (a1 m c) :=
  Chain.s02_v29 (W2 m ρ c) (a1 m c) (W2_v14 m ρ c) (W2_v5 m ρ c) (W2_v6 m ρ c)

/-! ## The first region: the features times the first weight matrix -/

theorem W4_v5 (c : Dev nD) : W4 m ρ c (Proc.devRef .tc main_v5) = val_main_v5 (F := Ideal) (a1 m c) :=
  (W4_of_ne m ρ c main_v5 (by decide)).trans (W3_v5 m ρ c)
theorem W4_v6 (c : Dev nD) : W4 m ρ c (Proc.devRef .tc main_v6) = val_main_v6 (F := Ideal) (a1 m c) :=
  (W4_of_ne m ρ c main_v6 (by decide)).trans (W3_v6 m ρ c)
theorem W4_v29 (c : Dev nD) : W4 m ρ c (Proc.devRef .tc main_v29) = val_main_v29 (F := Ideal) (a1 m c) :=
  (W4_of_ne m ρ c main_v29 (by decide)).trans (W3_v29 m ρ c)
theorem W4_arg3 (c : Dev nD) : W4 m ρ c (Proc.devRef .tc main_arg3) = a3 m c :=
  (W4_of_ne m ρ c main_arg3 (by decide)).trans (W3_arg3 m ρ c)
theorem W4_arg4 (c : Dev nD) : W4 m ρ c (Proc.devRef .tc main_arg4) = a4 m c :=
  (W4_of_ne m ρ c main_arg4 (by decide)).trans (W3_arg4 m ρ c)
theorem W4_arg5 (c : Dev nD) : W4 m ρ c (Proc.devRef .tc main_arg5) = a5 m c :=
  (W4_of_ne m ρ c main_arg5 (by decide)).trans (W3_arg5 m ρ c)
/-- After the first region its result array holds the reference's first product. -/
theorem W4_v30 (c : Dev nD) : W4 m ρ c (Proc.devRef .tc main_v30) = val_main_v30 (F := Ideal) (a0 m c) (a2 m c) := by
  refine (W4_arr m ρ c 2).trans ((Cert.KernelIdeal.TileMul.final0 (V3 m ρ) c).trans ?_)
  have e0 : V3 m ρ c main_arg0 = a0 m c := W3_arg0 m ρ c
  have e2 : V3 m ρ c main_arg2 = a2 m c := W3_arg2 m ρ c
  rw [e0, e2]
  exact Cert.LayerStages.rowsMul_v30 (a0 m c) (a2 m c)

/-! ## The first layer's aggregation and bias row -/

theorem W5_v5 (c : Dev nD) : W5 m ρ c (Proc.devRef .tc main_v5) = val_main_v5 (F := Ideal) (a1 m c) :=
  ((StableHlo.after_of_forall_not_mem (b := Proc.devRef .tc main_v5) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W5 m ρ c (Proc.devRef .tc main_v5) = W4 m ρ c (Proc.devRef .tc main_v5))).trans (W4_v5 m ρ c)
theorem W5_v6 (c : Dev nD) : W5 m ρ c (Proc.devRef .tc main_v6) = val_main_v6 (F := Ideal) (a1 m c) :=
  ((StableHlo.after_of_forall_not_mem (b := Proc.devRef .tc main_v6) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W5 m ρ c (Proc.devRef .tc main_v6) = W4 m ρ c (Proc.devRef .tc main_v6))).trans (W4_v6 m ρ c)
theorem W5_v29 (c : Dev nD) : W5 m ρ c (Proc.devRef .tc main_v29) = val_main_v29 (F := Ideal) (a1 m c) :=
  ((StableHlo.after_of_forall_not_mem (b := Proc.devRef .tc main_v29) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W5 m ρ c (Proc.devRef .tc main_v29) = W4 m ρ c (Proc.devRef .tc main_v29))).trans (W4_v29 m ρ c)
theorem W5_arg4 (c : Dev nD) : W5 m ρ c (Proc.devRef .tc main_arg4) = a4 m c :=
  ((StableHlo.after_of_forall_not_mem (b := Proc.devRef .tc main_arg4) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W5 m ρ c (Proc.devRef .tc main_arg4) = W4 m ρ c (Proc.devRef .tc main_arg4))).trans (W4_arg4 m ρ c)
theorem W5_arg5 (c : Dev nD) : W5 m ρ c (Proc.devRef .tc main_arg5) = a5 m c :=
  ((StableHlo.after_of_forall_not_mem (b := Proc.devRef .tc main_arg5) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W5 m ρ c (Proc.devRef .tc main_arg5) = W4 m ρ c (Proc.devRef .tc main_arg5))).trans (W4_arg5 m ρ c)
theorem W5_v43 (c : Dev nD) : W5 m ρ c (Proc.devRef .tc main_v43) = val_main_v43 (F := Ideal) (a0 m c) (a1 m c) (a2 m c) :=
  Chain.s1_v43 (W4 m ρ c) (a0 m c) (a1 m c) (a2 m c) (W4_v29 m ρ c) (W4_v5 m ρ c) (W4_v6 m ρ c) (W4_v30 m ρ c)
theorem W5_v44 (c : Dev nD) : W5 m ρ c (Proc.devRef .tc main_v44) = (shapeCast S1x128 (a3 m c) shapeCasts_S128_S1x128 : S1x128.Idx → Elt Ideal .f32) := by
  refine (Chain.s1_v44 (W4 m ρ c)).trans ?_
  rw [W4_arg3 m ρ c]

/-! ## The second region: the bias and the clip -/

theorem W6_v5 (c : Dev nD) : W6 m ρ c (Proc.devRef .tc main_v5) = val_main_v5 (F := Ideal) (a1 m c) :=
  (W6_of_ne m ρ c main_v5 (by decide)).trans (W5_v5 m ρ c)
theorem W6_v6 (c : Dev nD) : W6 m ρ c (Proc.devRef .tc main_v6) = val_main_v6 (F := Ideal) (a1 m c) :=
  (W6_of_ne m ρ c main_v6 (by decide)).trans (W5_v6 m ρ c)
theorem W6_v29 (c : Dev nD) : W6 m ρ c (Proc.devRef .tc main_v29) = val_main_v29 (F := Ideal) (a1 m c) :=
  (W6_of_ne m ρ c main_v29 (by decide)).trans (W5_v29 m ρ c)
theorem W6_arg4 (c : Dev nD) : W6 m ρ c (Proc.devRef .tc main_arg4) = a4 m c :=
  (W6_of_ne m ρ c main_arg4 (by decide)).trans (W5_arg4 m ρ c)
theorem W6_arg5 (c : Dev nD) : W6 m ρ c (Proc.devRef .tc main_arg5) = a5 m c :=
  (W6_of_ne m ρ c main_arg5 (by decide)).trans (W5_arg5 m ρ c)
/-- After the second region its result array holds the reference's hidden features. -/
theorem W6_v45 (c : Dev nD) : W6 m ρ c (Proc.devRef .tc main_v45) = val_main_v47 (F := Ideal) (a0 m c) (a1 m c) (a2 m c) (a3 m c) := by
  refine (W6_arr m ρ c 2).trans ((Cert.KernelIdeal.TileBias.final1 (V5 m ρ) c).trans ?_)
  have e43 : V5 m ρ c main_v43 = val_main_v43 (F := Ideal) (a0 m c) (a1 m c) (a2 m c) := W5_v43 m ρ c
  have e44 : V5 m ρ c main_v44 = (shapeCast S1x128 (a3 m c) shapeCasts_S128_S1x128 : S1x128.Idx → Elt Ideal .f32) := W5_v44 m ρ c
  rw [e43, e44]
  exact Cert.LayerStages.addRowClip_v47 (a0 m c) (a1 m c) (a2 m c) (a3 m c) shapeCasts_S128_S1x128

/-! ## The third region: the hidden features times the second weight matrix -/

theorem W7_v5 (c : Dev nD) : W7 m ρ c (Proc.devRef .tc main_v5) = val_main_v5 (F := Ideal) (a1 m c) :=
  (W7_of_ne m ρ c main_v5 (by decide)).trans (W6_v5 m ρ c)
theorem W7_v6 (c : Dev nD) : W7 m ρ c (Proc.devRef .tc main_v6) = val_main_v6 (F := Ideal) (a1 m c) :=
  (W7_of_ne m ρ c main_v6 (by decide)).trans (W6_v6 m ρ c)
theorem W7_v29 (c : Dev nD) : W7 m ρ c (Proc.devRef .tc main_v29) = val_main_v29 (F := Ideal) (a1 m c) :=
  (W7_of_ne m ρ c main_v29 (by decide)).trans (W6_v29 m ρ c)
theorem W7_arg5 (c : Dev nD) : W7 m ρ c (Proc.devRef .tc main_arg5) = a5 m c :=
  (W7_of_ne m ρ c main_arg5 (by decide)).trans (W6_arg5 m ρ c)
/-- After the third region its result array holds the reference's second product. -/
theorem W7_v46 (c : Dev nD) : W7 m ρ c (Proc.devRef .tc main_v46) = val_main_v48 (F := Ideal) (a0 m c) (a1 m c) (a2 m c) (a3 m c) (a4 m c) := by
  refine (W7_arr m ρ c 2).trans ((Cert.KernelIdeal.TileMul.final2 (V6 m ρ) c).trans ?_)
  have e45 : V6 m ρ c main_v45 = val_main_v47 (F := Ideal) (a0 m c) (a1 m c) (a2 m c) (a3 m c) := W6_v45 m ρ c
  have e4 : V6 m ρ c main_arg4 = a4 m c := W6_arg4 m ρ c
  rw [e45, e4]
  exact Cert.LayerStages.rowsMul_v48 (a0 m c) (a1 m c) (a2 m c) (a3 m c) (a4 m c)

/-! ## The second layer's aggregation and bias row -/

theorem W8_v59 (c : Dev nD) : W8 m ρ c (Proc.devRef .tc main_v59) = val_main_v61 (F := Ideal) (a0 m c) (a1 m c) (a2 m c) (a3 m c) (a4 m c) :=
  Chain.s3_v59 (W7 m ρ c) (a0 m c) (a1 m c) (a2 m c) (a3 m c) (a4 m c) (W7_v29 m ρ c) (W7_v5 m ρ c) (W7_v6 m ρ c) (W7_v46 m ρ c)
theorem W8_v60 (c : Dev nD) : W8 m ρ c (Proc.devRef .tc main_v60) = (shapeCast S1x64 (a5 m c) shapeCasts_S64_S1x64 : S1x64.Idx → Elt Ideal .f32) := by
  refine (Chain.s3_v60 (W7 m ρ c)).trans ?_
  rw [W7_arg5 m ρ c]

/-! ## The last region: the second bias -/

/-- After the last region the kernel's result array holds the reference's result, as a function of the launch arguments. -/
theorem W9_v61 (c : Dev nD) :
    W9 m ρ c (Proc.devRef .tc main_v61) = val_main_v64 (F := Ideal) (a0 m c) (a1 m c) (a2 m c) (a3 m c) (a4 m c) (a5 m c) := by
  refine (W9_arr m ρ c 2).trans ((Cert.KernelIdeal.TileBias.final3 (V8 m ρ) c).trans ?_)
  have e59 : V8 m ρ c main_v59 = val_main_v61 (F := Ideal) (a0 m c) (a1 m c) (a2 m c) (a3 m c) (a4 m c) := W8_v59 m ρ c
  have e60 : V8 m ρ c main_v60 = (shapeCast S1x64 (a5 m c) shapeCasts_S64_S1x64 : S1x64.Idx → Elt Ideal .f32) := W8_v60 m ρ c
  rw [e59, e60]
  exact Cert.LayerStages.addRow_v64 (a0 m c) (a1 m c) (a2 m c) (a3 m c) (a4 m c) (a5 m c) shapeCasts_S64_S1x64

end Cert.KernelIdeal.Bridge

end
-- ==== Proof.RefRunHand.lean ====
/-
  The reference's run, read stage by stage.

  The reference is one straight line of 83 whole-array host operations. Run from the launch arguments, each operation's result
  is the stage `val_main_v…` that reads the reference one operation at a time: the edge list with the self loops appended, the
  degrees and their inverse square roots, the per-edge weights, and per layer the product, its rows gathered along the edges,
  scaled and summed onto the target nodes, the bias (and, in the first layer, the clip at zero). The operation list is read in
  consecutive stretches, each from any buffer contents whose earlier results are already the stages.
-/
import proofs.«158470_j22308060135605_1_alg».proof.Proof.RefRun
import proofs.«158470_j22308060135605_1_alg».proof.Proof.RefRead
import Idealize.ShloMosaic.Lib.StableHlo.Run

set_option maxRecDepth 16384

noncomputable section

open Idealize.ShloMosaic Idealize.ShloMosaic.TcCoe Idealize.SL.Sem Idealize.ShloMosaic.StableHlo

namespace Cert.ReferenceIdeal.RunHand

open Cert.ReferenceIdeal Cert.ReferenceIdeal.Gen Cert.ReferenceIdeal.RunP Cert.ReferenceIdeal.ReadP

variable {F : FTy → Type} [FloatOps F]

/-! ## The operation list in seven consecutive stretches -/

/-- Operations 1 to 18: the two rows of the edge list, each with the self loops appended; the degrees (a one summed onto each edge's target node); the test that a degree is positive; the degrees' inverse square roots; a zero. -/
abbrev opsA : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_v4 (iotaInDim S50000 32 0),
    binary main_v1 main_v4 main_v5 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v4 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32) ]

/-- Operations 19 to 21: the inverse square roots, with zero where the degree is not positive. -/
abbrev opsB : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select ]

/-- Operations 22 to 40: each edge's weight, the product of its two end nodes' inverse square roots (a node index below zero wrapped by 50000 before the entry is taken). -/
abbrev opsC : List (HloOp τ sig (Elt F)) :=
  [ nullary main_c (constantI S_ 32 0#32),
    unary main_c main_v15 (broadcastInDim S850000 ![] bcast_S_S850000 : (⟨S_, .i32⟩ : BufTy).Contents (Elt F) → (⟨S850000, .i32⟩ : BufTy).Contents (Elt F)),
    binary main_v5 main_v15 main_v16 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v17 (broadcastInDim S850000 ![] bcast_S_S850000 : (⟨S_, .i32⟩ : BufTy).Contents (Elt F) → (⟨S850000, .i32⟩ : BufTy).Contents (Elt F)),
    binary main_v5 main_v17 main_v18 (addi : (⟨S850000, .i32⟩ : BufTy).Contents (Elt F) → (⟨S850000, .i32⟩ : BufTy).Contents (Elt F) → (⟨S850000, .i32⟩ : BufTy).Contents (Elt F)),
    ternary main_v16 main_v18 main_v5 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v19 main_v20 (broadcastInDim S850000x1 ![0] bcast_S850000_S850000x1_0 : (⟨S850000, .i32⟩ : BufTy).Contents (Elt F) → (⟨S850000x1, .i32⟩ : BufTy).Contents (Elt F)),
    binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v22 (broadcastInDim S850000 ![] bcast_S_S850000 : (⟨S_, .i32⟩ : BufTy).Contents (Elt F) → (⟨S850000, .i32⟩ : BufTy).Contents (Elt F)),
    binary main_v6 main_v22 main_v23 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (addi : (⟨S850000, .i32⟩ : BufTy).Contents (Elt F) → (⟨S850000, .i32⟩ : BufTy).Contents (Elt F) → (⟨S850000, .i32⟩ : BufTy).Contents (Elt F)),
    ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v26 main_v27 (broadcastInDim S850000x1 ![0] bcast_S850000_S850000x1_0 : (⟨S850000, .i32⟩ : BufTy).Contents (Elt F) → (⟨S850000x1, .i32⟩ : BufTy).Contents (Elt F)),
    binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v21 main_v28 main_v29 (mulf : (⟨S850000, .f32⟩ : BufTy).Contents (Elt F) → (⟨S850000, .f32⟩ : BufTy).Contents (Elt F) → (⟨S850000, .f32⟩ : BufTy).Contents (Elt F)) ]

/-- Operations 41 to 57, the first layer: the features times the first weight matrix, its rows taken along the edges' sources, scaled by the edges' weights and summed onto the targets. -/
abbrev opsD : List (HloOp τ sig (Elt F)) :=
  [ binary main_arg0 main_arg2 main_v30 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v29 main_v31 (broadcastInDim S850000x1 ![0] bcast_S850000_S850000x1_0 : (⟨S850000, .f32⟩ : BufTy).Contents (Elt F) → (⟨S850000x1, .f32⟩ : BufTy).Contents (Elt F)),
    nullary main_c_6 (constantI S_ 32 0#32),
    unary main_c_6 main_v32 (broadcastInDim S850000 ![] bcast_S_S850000 : (⟨S_, .i32⟩ : BufTy).Contents (Elt F) → (⟨S850000, .i32⟩ : BufTy).Contents (Elt F)),
    binary main_v5 main_v32 main_v33 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v34 (broadcastInDim S850000 ![] bcast_S_S850000 : (⟨S_, .i32⟩ : BufTy).Contents (Elt F) → (⟨S850000, .i32⟩ : BufTy).Contents (Elt F)),
    binary main_v5 main_v34 main_v35 (addi : (⟨S850000, .i32⟩ : BufTy).Contents (Elt F) → (⟨S850000, .i32⟩ : BufTy).Contents (Elt F) → (⟨S850000, .i32⟩ : BufTy).Contents (Elt F)),
    ternary main_v33 main_v35 main_v5 main_v36 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v36 main_v37 (broadcastInDim S850000x1 ![0] bcast_S850000_S850000x1_0 : (⟨S850000, .i32⟩ : BufTy).Contents (Elt F) → (⟨S850000x1, .i32⟩ : BufTy).Contents (Elt F)),
    binary main_v30 main_v37 main_v38 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v31 main_v39 (broadcastInDim S850000x128 ![0, 1] bcast_S850000x1_S850000x128_0_1 : (⟨S850000x1, .f32⟩ : BufTy).Contents (Elt F) → (⟨S850000x128, .f32⟩ : BufTy).Contents (Elt F)),
    binary main_v39 main_v38 main_v40 (mulf : (⟨S850000x128, .f32⟩ : BufTy).Contents (Elt F) → (⟨S850000x128, .f32⟩ : BufTy).Contents (Elt F) → (⟨S850000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v6 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)) ]

/-- Operations 58 to 64: the first bias added to every row, the clip at zero, the product with the second weight matrix. -/
abbrev opsE : List (HloOp τ sig (Elt F)) :=
  [ unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v46) (TRef.of (T := ⟨S50000x128, .f32⟩) main_call1_v0) (TRef.of (T := ⟨S50000x128, .f32⟩) main_v47) maximumf,
    binary main_v47 main_arg4 main_v48 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)) ]

/-- Operations 65 to 80, the second layer: the product's rows taken along the edges' sources, scaled by the edges' weights and summed onto the targets. -/
abbrev opsF : List (HloOp τ sig (Elt F)) :=
  [ unary main_v29 main_v49 (broadcastInDim S850000x1 ![0] bcast_S850000_S850000x1_0 : (⟨S850000, .f32⟩ : BufTy).Contents (Elt F) → (⟨S850000x1, .f32⟩ : BufTy).Contents (Elt F)),
    nullary main_c_9 (constantI S_ 32 0#32),
    unary main_c_9 main_v50 (broadcastInDim S850000 ![] bcast_S_S850000 : (⟨S_, .i32⟩ : BufTy).Contents (Elt F) → (⟨S850000, .i32⟩ : BufTy).Contents (Elt F)),
    binary main_v5 main_v50 main_v51 (cmpi .slt : (⟨S850000, .i32⟩ : BufTy).Contents (Elt F) → (⟨S850000, .i32⟩ : BufTy).Contents (Elt F) → (⟨S850000, .i1⟩ : BufTy).Contents (Elt F)),
    nullary main_c_10 (constantI S_ 32 50000#32),
    unary main_c_10 main_v52 (broadcastInDim S850000 ![] bcast_S_S850000 : (⟨S_, .i32⟩ : BufTy).Contents (Elt F) → (⟨S850000, .i32⟩ : BufTy).Contents (Elt F)),
    binary main_v5 main_v52 main_v53 (addi : (⟨S850000, .i32⟩ : BufTy).Contents (Elt F) → (⟨S850000, .i32⟩ : BufTy).Contents (Elt F) → (⟨S850000, .i32⟩ : BufTy).Contents (Elt F)),
    ternary main_v51 main_v53 main_v5 main_v54 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v54 main_v55 (broadcastInDim S850000x1 ![0] bcast_S850000_S850000x1_0 : (⟨S850000, .i32⟩ : BufTy).Contents (Elt F) → (⟨S850000x1, .i32⟩ : BufTy).Contents (Elt F)),
    binary main_v48 main_v55 main_v56 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v49 main_v57 (broadcastInDim S850000x64 ![0, 1] bcast_S850000x1_S850000x64_0_1 : (⟨S850000x1, .f32⟩ : BufTy).Contents (Elt F) → (⟨S850000x64, .f32⟩ : BufTy).Contents (Elt F)),
    binary main_v57 main_v56 main_v58 (mulf : (⟨S850000x64, .f32⟩ : BufTy).Contents (Elt F) → (⟨S850000x64, .f32⟩ : BufTy).Contents (Elt F) → (⟨S850000x64, .f32⟩ : BufTy).Contents (Elt F)),
    nullary main_cst_11 (constant S_ .f32 0x00000000#32),
    unary main_cst_11 main_v59 (broadcastInDim S50000x64 ![] bcast_S_S50000x64 : (⟨S_, .f32⟩ : BufTy).Contents (Elt F) → (⟨S50000x64, .f32⟩ : BufTy).Contents (Elt F)),
    unary main_v6 main_v60 (broadcastInDim S850000x1 ![0] bcast_S850000_S850000x1_0 : (⟨S850000, .i32⟩ : BufTy).Contents (Elt F) → (⟨S850000x1, .i32⟩ : BufTy).Contents (Elt F)),
    ternary main_v59 main_v60 main_v58 main_v61 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)) ]

/-- Operations 81 to 83: the second bias added to every row. -/
abbrev opsG : List (HloOp τ sig (Elt F)) :=
  [ unary main_arg5 main_v62 (broadcastInDim S1x64 ![1] bcast_S64_S1x64_1 : (⟨S64, .f32⟩ : BufTy).Contents (Elt F) → (⟨S1x64, .f32⟩ : BufTy).Contents (Elt F)),
    unary main_v62 main_v63 (broadcastInDim S50000x64 ![0, 1] bcast_S1x64_S50000x64_0_1 : (⟨S1x64, .f32⟩ : BufTy).Contents (Elt F) → (⟨S50000x64, .f32⟩ : BufTy).Contents (Elt F)),
    binary main_v61 main_v63 main_v64 (addf : (⟨S50000x64, .f32⟩ : BufTy).Contents (Elt F) → (⟨S50000x64, .f32⟩ : BufTy).Contents (Elt F) → (⟨S50000x64, .f32⟩ : BufTy).Contents (Elt F)) ]

/-- The seven stretches in a row are the reference's operation list. -/
theorem ops_split : (ops : List (HloOp τ sig (Elt F))) = opsA ++ (opsB ++ (opsC ++ (opsD ++ (opsE ++ (opsF ++ opsG))))) := rfl

/-! ## What the buffers hold between two stretches

Between two stretches only the buffers a later stretch reads matter: each holds its stage of the launch arguments `x0` … `x5`. -/

/-- The launch: every argument's buffer at its contents. -/
structure At0 (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x64, .f32⟩ : BufTy).Contents (Elt F)) (x5 : (⟨S64, .f32⟩ : BufTy).Contents (Elt F))
    (W : Valuation τ sig (Elt F)) : Prop where
  arg0 : W (Proc.devRef .tc main_arg0) = x0
  arg1 : W (Proc.devRef .tc main_arg1) = x1
  arg2 : W (Proc.devRef .tc main_arg2) = x2
  arg3 : W (Proc.devRef .tc main_arg3) = x3
  arg4 : W (Proc.devRef .tc main_arg4) = x4
  arg5 : W (Proc.devRef .tc main_arg5) = x5

/-- After the first stretch: the edge list with the self loops appended (sources and targets), the test that a degree is positive, the degrees' inverse square roots, the zero the test selects against; the arguments still to be read. -/
structure AtA (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x64, .f32⟩ : BufTy).Contents (Elt F)) (x5 : (⟨S64, .f32⟩ : BufTy).Contents (Elt F))
    (W : Valuation τ sig (Elt F)) : Prop where
  v5 : W (Proc.devRef .tc main_v5) = val_main_v5 (F := F) x1
  v6 : W (Proc.devRef .tc main_v6) = val_main_v6 (F := F) x1
  v12 : W (Proc.devRef .tc main_v12) = val_main_v12 (F := F) x1
  v13 : W (Proc.devRef .tc main_v13) = val_main_v13 (F := F) x1
  cst_2 : W (Proc.devRef .tc main_cst_2) = val_main_cst_2 (F := F)
  arg0 : W (Proc.devRef .tc main_arg0) = x0
  arg2 : W (Proc.devRef .tc main_arg2) = x2
  arg3 : W (Proc.devRef .tc main_arg3) = x3
  arg4 : W (Proc.devRef .tc main_arg4) = x4
  arg5 : W (Proc.devRef .tc main_arg5) = x5

/-- After the selection: the inverse square roots with zero where a degree is not positive. -/
structure AtB (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x64, .f32⟩ : BufTy).Contents (Elt F)) (x5 : (⟨S64, .f32⟩ : BufTy).Contents (Elt F))
    (W : Valuation τ sig (Elt F)) : Prop where
  v5 : W (Proc.devRef .tc main_v5) = val_main_v5 (F := F) x1
  v6 : W (Proc.devRef .tc main_v6) = val_main_v6 (F := F) x1
  v14 : W (Proc.devRef .tc main_v14) = val_main_v14 (F := F) x1
  arg0 : W (Proc.devRef .tc main_arg0) = x0
  arg2 : W (Proc.devRef .tc main_arg2) = x2
  arg3 : W (Proc.devRef .tc main_arg3) = x3
  arg4 : W (Proc.devRef .tc main_arg4) = x4
  arg5 : W (Proc.devRef .tc main_arg5) = x5

/-- After the third stretch: the per-edge weights. -/
structure AtC (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x64, .f32⟩ : BufTy).Contents (Elt F)) (x5 : (⟨S64, .f32⟩ : BufTy).Contents (Elt F))
    (W : Valuation τ sig (Elt F)) : Prop where
  v5 : W (Proc.devRef .tc main_v5) = val_main_v5 (F := F) x1
  v6 : W (Proc.devRef .tc main_v6) = val_main_v6 (F := F) x1
  v29 : W (Proc.devRef .tc main_v29) = val_main_v29 (F := F) x1
  arg0 : W (Proc.devRef .tc main_arg0) = x0
  arg2 : W (Proc.devRef .tc main_arg2) = x2
  arg3 : W (Proc.devRef .tc main_arg3) = x3
  arg4 : W (Proc.devRef .tc main_arg4) = x4
  arg5 : W (Proc.devRef .tc main_arg5) = x5

/-- After the first layer's product and its sum over the edges: the summed rows of the first layer. -/
structure AtD (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x64, .f32⟩ : BufTy).Contents (Elt F)) (x5 : (⟨S64, .f32⟩ : BufTy).Contents (Elt F))
    (W : Valuation τ sig (Elt F)) : Prop where
  v5 : W (Proc.devRef .tc main_v5) = val_main_v5 (F := F) x1
  v6 : W (Proc.devRef .tc main_v6) = val_main_v6 (F := F) x1
  v29 : W (Proc.devRef .tc main_v29) = val_main_v29 (F := F) x1
  v43 : W (Proc.devRef .tc main_v43) = val_main_v43 (F := F) x0 x1 x2
  arg3 : W (Proc.devRef .tc main_arg3) = x3
  arg4 : W (Proc.devRef .tc main_arg4) = x4
  arg5 : W (Proc.devRef .tc main_arg5) = x5

/-- After the bias, the clip at zero and the second product. -/
structure AtE (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x64, .f32⟩ : BufTy).Contents (Elt F)) (x5 : (⟨S64, .f32⟩ : BufTy).Contents (Elt F))
    (W : Valuation τ sig (Elt F)) : Prop where
  v5 : W (Proc.devRef .tc main_v5) = val_main_v5 (F := F) x1
  v6 : W (Proc.devRef .tc main_v6) = val_main_v6 (F := F) x1
  v29 : W (Proc.devRef .tc main_v29) = val_main_v29 (F := F) x1
  v48 : W (Proc.devRef .tc main_v48) = val_main_v48 (F := F) x0 x1 x2 x3 x4
  arg5 : W (Proc.devRef .tc main_arg5) = x5

/-- After the second layer's sum over the edges. -/
structure AtF (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x64, .f32⟩ : BufTy).Contents (Elt F)) (x5 : (⟨S64, .f32⟩ : BufTy).Contents (Elt F))
    (W : Valuation τ sig (Elt F)) : Prop where
  v61 : W (Proc.devRef .tc main_v61) = val_main_v61 (F := F) x0 x1 x2 x3 x4
  arg5 : W (Proc.devRef .tc main_arg5) = x5

/-! ## One stretch at a time, from any contents that hold the earlier stages -/

section Steps
variable (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x64, .f32⟩ : BufTy).Contents (Elt F)) (x5 : (⟨S64, .f32⟩ : BufTy).Contents (Elt F))
  (V : Valuation τ sig (Elt F))

/-- From the launch contents the first stretch leaves the edge lists, the positivity test, the inverse square roots and the zero at their stages, and writes no argument. -/
theorem stepA (h : At0 x0 x1 x2 x3 x4 x5 V) : AtA x0 x1 x2 x3 x4 x5 (after opsA V) where
  v5 := by after_results; rw [h.arg1]; rfl
  v6 := by after_results; rw [h.arg1]; rfl
  v12 := by after_results; rw [h.arg1]; rfl
  v13 := by after_results; rw [h.arg1]; rfl
  cst_2 := by after_results; rfl
  arg0 := by after_results; exact h.arg0
  arg2 := by after_results; exact h.arg2
  arg3 := by after_results; exact h.arg3
  arg4 := by after_results; exact h.arg4
  arg5 := by after_results; exact h.arg5

/-- The selection reads the test, the inverse square roots and the zero, and leaves the edge lists and the arguments alone. -/
theorem stepB (h : AtA x0 x1 x2 x3 x4 x5 V) : AtB x0 x1 x2 x3 x4 x5 (after opsB V) where
  v5 := by after_results_simp; exact h.v5
  v6 := by after_results_simp; exact h.v6
  v14 := by after_results_simp; rw [h.v12, h.v13, h.cst_2]; rfl
  arg0 := by after_results_simp; exact h.arg0
  arg2 := by after_results_simp; exact h.arg2
  arg3 := by after_results_simp; exact h.arg3
  arg4 := by after_results_simp; exact h.arg4
  arg5 := by after_results_simp; exact h.arg5

/-- The weights read the selected inverse square roots along both edge lists. -/
theorem stepC (h : AtB x0 x1 x2 x3 x4 x5 V) : AtC x0 x1 x2 x3 x4 x5 (after opsC V) where
  v5 := by after_results_simp; exact h.v5
  v6 := by after_results_simp; exact h.v6
  v29 := by after_results_simp; rw [h.v14, h.v5, h.v6]; rfl
  arg0 := by after_results_simp; exact h.arg0
  arg2 := by after_results_simp; exact h.arg2
  arg3 := by after_results_simp; exact h.arg3
  arg4 := by after_results_simp; exact h.arg4
  arg5 := by after_results_simp; exact h.arg5

/-- The first layer reads the features, the first weight matrix, the edge lists and the weights. -/
theorem stepD (h : AtC x0 x1 x2 x3 x4 x5 V) : AtD x0 x1 x2 x3 x4 x5 (after opsD V) where
  v5 := by after_results_simp; exact h.v5
  v6 := by after_results_simp; exact h.v6
  v29 := by after_results_simp; exact h.v29
  v43 := by after_results_simp; rw [h.v6, h.v29, h.arg0, h.arg2, h.v5]; rfl
  arg3 := by after_results_simp; exact h.arg3
  arg4 := by after_results_simp; exact h.arg4
  arg5 := by after_results_simp; exact h.arg5

/-- The bias, the clip and the second product read the first layer's sum, the first bias and the second weight matrix. -/
theorem stepE (h : AtD x0 x1 x2 x3 x4 x5 V) : AtE x0 x1 x2 x3 x4 x5 (after opsE V) where
  v5 := by after_results_simp; exact h.v5
  v6 := by after_results_simp; exact h.v6
  v29 := by after_results_simp; exact h.v29
  v48 := by after_results_simp; rw [h.v43, h.arg3, h.arg4]; rfl
  arg5 := by after_results_simp; exact h.arg5

/-- The second layer reads the second product, the edge lists and the weights. -/
theorem stepF (h : AtE x0 x1 x2 x3 x4 x5 V) : AtF x0 x1 x2 x3 x4 x5 (after opsF V) where
  v61 := by after_results_simp; rw [h.v6, h.v29, h.v48, h.v5]; rfl
  arg5 := by after_results_simp; exact h.arg5

/-- The last stretch adds the second bias onto the second layer's sum: the result's stage. -/
theorem stepG (h : AtF x0 x1 x2 x3 x4 x5 V) :
    after opsG V (Proc.devRef .tc main_v64) = val_main_v64 (F := F) x0 x1 x2 x3 x4 x5 := by
  after_results; rw [h.v61, h.arg5]; rfl

end Steps

/-! ## The whole line -/

/-- From any contents, after the 83 operations the result buffer holds the last stage of the arguments' contents. -/
theorem result (V : Valuation τ sig (Elt F)) :
    after ops V (Proc.devRef .tc main_v64)
      = val_main_v64 (F := F) (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  rw [ops_split]
  simp only [StableHlo.after_append]
  exact stepG _ _ _ _ _ _ _ (stepF _ _ _ _ _ _ _ (stepE _ _ _ _ _ _ _ (stepD _ _ _ _ _ _ _ (stepC _ _ _ _ _ _ _ (stepB _ _ _ _ _ _ _ (stepA _ _ _ _ _ _ V ⟨rfl, rfl, rfl, rfl, rfl, rfl⟩))))))

/-- No operation writes an argument's buffer. -/
theorem kept (V : Valuation τ sig (Elt F)) :
    after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2)
    ∧ after ops V (Proc.devRef .tc main_arg3) = V (Proc.devRef .tc main_arg3)
    ∧ after ops V (Proc.devRef .tc main_arg4) = V (Proc.devRef .tc main_arg4)
    ∧ after ops V (Proc.devRef .tc main_arg5) = V (Proc.devRef .tc main_arg5) := by
  refine ⟨?_, ?_, ?_, ?_, ?_, ?_⟩ <;> after_results_simp

/-- On every device, for any float values, from any memory with zero counters: every weakly fair execution of the reference
    terminates with its result at the last stage of the launch arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v64)
        = val_main_v64 (F := F) (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun _ h c => ?_)
    (run_seq scopedRefs_eq scopedSems_eq defs main (fun _ => ops) main_eq (fun _ => ops_sub) m ρ)
  obtain ⟨k0, k1, k2, k3, k4, k5⟩ := kept (F := F) (launchContents m c)
  exact ⟨(h c main_v64).trans (result (launchContents m c)), (h c main_arg0).trans k0, (h c main_arg1).trans k1,
    (h c main_arg2).trans k2, (h c main_arg3).trans k3, (h c main_arg4).trans k4, (h c main_arg5).trans k5⟩

end Cert.ReferenceIdeal.RunHand

end
-- ==== Proof.lean ====
/-
  The certificate of a two-layer graph convolution: the kernel's program against its reference, over the extended reals.

  Both programs compute, per layer, "multiply the node features by a weight matrix, gather the rows along the edges, scale
  them by the symmetric normalisation and sum them onto the target nodes, add the bias" (the first layer then clips at
  zero). Everything irregular — the edge list with its self loops, the degrees, the per-edge weights, the gather and the
  scatter-add — is the same host operations in both programs. The kernel's program differs only in the dense steps: it
  computes each product and each bias step in ten row tiles of 5000 rows, a change of float format before the product being
  the identity over the extended reals. A product's entry reads one row of its left operand and the bias steps are entry
  by entry, so the ten tiles write the whole-array functions the reference applies; no algebraic law is needed, and nothing
  here uses that the inputs are finite.

  The frames of the two kernel programs are the generated ones; the reference's frame is its run with the result dropped.
  The idealization rewrote no operation, so it preserves the kernel trivially.
-/
import proofs.«158470_j22308060135605_1_alg».proof.Defs
import proofs.«158470_j22308060135605_1_alg».proof.Proof.Gen.Kernel
import proofs.«158470_j22308060135605_1_alg».proof.Proof.Gen.Kernel.Skeleton
import proofs.«158470_j22308060135605_1_alg».proof.Proof.Gen.Kernel.Launch
import proofs.«158470_j22308060135605_1_alg».proof.Proof.Gen.Kernel.Points
import proofs.«158470_j22308060135605_1_alg».proof.Proof.Gen.Kernel.Frame
import proofs.«158470_j22308060135605_1_alg».proof.Proof.Gen.KernelIdeal
import proofs.«158470_j22308060135605_1_alg».proof.Proof.Gen.KernelIdeal.Skeleton
import proofs.«158470_j22308060135605_1_alg».proof.Proof.Gen.KernelIdeal.Launch
import proofs.«158470_j22308060135605_1_alg».proof.Proof.Gen.KernelIdeal.Points
import proofs.«158470_j22308060135605_1_alg».proof.Proof.Gen.KernelIdeal.Frame
import proofs.«158470_j22308060135605_1_alg».proof.Proof.Gen.ReferenceIdeal
import proofs.«158470_j22308060135605_1_alg».proof.Proof.Gen.Pre_finite_inputs
import proofs.«158470_j22308060135605_1_alg».proof.Proof.KernelRun
import proofs.«158470_j22308060135605_1_alg».proof.Proof.Bridge
import proofs.«158470_j22308060135605_1_alg».proof.Proof.RefRunHand
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.RunHand.run (F := Ideal) m ρ)

/-- Both programs end with the reference's last stage of the launch arguments in their result arrays: the kernel's program
    by the reading of its regions and stretches boundary by boundary, the reference by its run; the arguments agree. -/
theorem algebraic : Cert.algebraic_KernelIdeal_ReferenceIdeal := by
  intro m ρ m' ρ' _ hagree
  refine ⟨fun c => Cert.ReferenceIdeal.ReadP.val_main_v64 (F := Ideal) (Cert.KernelIdeal.Bridge.a0 m c) (Cert.KernelIdeal.Bridge.a1 m c)
      (Cert.KernelIdeal.Bridge.a2 m c) (Cert.KernelIdeal.Bridge.a3 m c) (Cert.KernelIdeal.Bridge.a4 m c) (Cert.KernelIdeal.Bridge.a5 m c), ?_, ?_⟩
  · exact (θ_run Cert.KernelIdeal.defs _ _).mono (fun _ h c => ⟨(h c).1.trans (Cert.KernelIdeal.Bridge.W9_v61 m ρ c), (h c).2⟩)
      (Cert.KernelIdeal.RunP.run_main (F := Ideal) m ρ)
  · refine (θ_run Cert.ReferenceIdeal.defs _ _).mono (fun _ h c => ⟨(h c).1.trans ?_, (h c).2⟩)
      (Cert.ReferenceIdeal.RunHand.run (F := Ideal) m' ρ')
    obtain ⟨e0, e1, e2, e3, e4, e5⟩ := hagree c
    rw [e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
